-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S8192x8192 .f32) (main_arg2 : FVec F S8192x8192 .f32) (main_arg3 : FVec F S257x128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S257x128 .f32 := Host.absf main_arg3
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg4 main_v13 main_v16
-- ==== Kernel.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S128x128 : Shape := ⟨2, ![128, 128]⟩
abbrev S1x128 : Shape := ⟨2, ![1, 128]⟩
abbrev S512x4096 : Shape := ⟨2, ![512, 4096]⟩
abbrev S4096x512 : Shape := ⟨2, ![4096, 512]⟩
abbrev S512x128 : Shape := ⟨2, ![512, 128]⟩
abbrev S512x1 : Shape := ⟨2, ![512, 1]⟩
abbrev S4096x128 : Shape := ⟨2, ![4096, 128]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S8192x128, .f32⟩
  | .local _ .vmem, ⟨0, _⟩ => ⟨S8192x128, .f32⟩
  | .local _ .vmem, ⟨1, _⟩ => ⟨S512x4096, .f32⟩
  | .local _ .vmem, ⟨2, _⟩ => ⟨S512x4096, .f32⟩
  | .local _ .vmem, ⟨3, _⟩ => ⟨S4096x512, .f32⟩
  | .local _ .vmem, ⟨4, _⟩ => ⟨S4096x512, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg1 : BitVec 32 := BitVec.ofNat 32 (i 1).val
  let c4096_i32 : BitVec 32 := 4096#32
  let v4 : BitVec 32 := Scalar.muli arg1 c4096_i32
  let v5 : Index := Scalar.indexCast v4
  let c0_2 : Index := 0#32
  ![v5.toNat, 0]
def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_14 : BitVec 32 := 0#32
  let v27 : BitVec 1 := Scalar.cmpi .ne v26 c0_i32_14
  v27

def k0_off2 (i : grid0.Coords) : Fin 2 → Nat :=
  let arg0 : BitVec 32 := BitVec.ofNat 32 (i 0).val
  let c512_i32 : BitVec 32 := 512#32
  let v28 : BitVec 32 := Scalar.muli arg0 c512_i32
  let v29 : Index := Scalar.indexCast v28
  let c0_15 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  h_S4096x128 : 0 < S4096x128.numel
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  transposes_S4096x512_p1_0_S512x4096 : S4096x512.Transposes [1, 0] S512x4096
  reduces_S512x4096_S512 : S512x4096.Reduces [1] S512
  shapeCasts_S512_S512x1 : S512.ShapeCasts S512x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S512x1_S512x128 : S512x1.Broadcasts S512x128
  broadcasts_S1x128_S512x128 : S1x128.Broadcasts S512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ a, (k0_off1 i) a + S4096x128.size a ≤ S8192x128.size a
  k0_off2_inb : ∀ i : grid0.Coords, ∀ (k0_h2 : k0_cond2 i = 1#1), ∀ a, (k0_off2 i) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x8192.size a
  hwx0_1 : ∀ i : grid0.Coords, EltTy.bits .f32 = 32 ∨ (Rect.block (s := S8192x8192) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S8192x8192.size a
  hwx0_2 : ∀ i : grid0.Coords, EltTy.bits .f32 = 32 ∨ (Rect.block (s := S8192x8192) S4096x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S8192x128.size a
  hwx0_7 : ∀ i : grid0.Coords, EltTy.bits .f32 = 32 ∨ (Rect.block (s := S8192x128) S512x128.size (cc0_transform_7 i) (hinb0_7 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x257 : Shape := ⟨2, ![8192, 257]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S257x128, .f32⟩
  | .hbm, ⟨4, _⟩ => ⟨S128, .f32⟩
  | .hbm, ⟨5, _⟩ => ⟨S8192x128, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x257, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S8192x8192_S8192x8192_1_0 : S8192x8192.Transposes [1, 0] S8192x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  concatenates_S8192x128_S8192x128_S8192x1_S8192x257_d1 : Shape.Concatenates [S8192x128, S8192x128, S8192x1] S8192x257 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x257_S257x128_S8192x128_1_0_0_1_n_n_wf : DotDims.WF S8192x257 S257x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x257_S257x128_S8192x128_1_0_0_1_n_n : DotDims S8192x257 S257x128 S8192x128 where
  lhsContracting := [1]
  rhsContracting := [0]
  lhsNonContracting := [0]
  rhsNonContracting := [1]
  lhsBatch := []
  rhsBatch := []
  wf := dot_S8192x257_S257x128_S8192x128_1_0_0_1_n_n_wf

class Facts : Prop extends Facts₀ where

variable [Facts]
-- ==== Proof.Pieces.lean ====
/-
  What one run of the kernel body leaves in its two accumulators and in the output block, as values.

  At a first contraction step (column block 0) both accumulators are reset and then updated, so they end at the update
  of zero; at a last contraction step (column block 1) they are updated from what the step before left, and the output
  block is computed from the UPDATED accumulators (the body reads them back after storing them). The slab of node
  features the products use is read out of the resident copy at a row offset: `4096·j` for the contraction slab,
  `512·i` for the row block itself.
-/
import proofs.«157487_g52012053954614_cont_9to1_m_572_12_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The 4096 rows of node features the contraction step at grid point `i` multiplies by: rows `4096·j …` of the
    resident copy. -/
abbrev slab (i : grid0.Coords) (x0 : Vec F S8192x128 .f32) : Vec F S4096x128 .f32 :=
  View.ld x0 (Rect.unit (s := S8192x128) (k0_off1 i) S4096x128.size (k0_off1_inb i))

/-- The 512 rows of node features of the row block itself: rows `512·i …` of the resident copy. -/
abbrev ownRows (i : grid0.Coords) (hc1 : cond0_1 i) (x0 : Vec F S8192x128 .f32) : Vec F S512x128 .f32 :=
  View.ld x0 (Rect.unit (s := S8192x128) (k0_off2 i) S512x128.size (k0_off2_inb i hc1))

/-- First step: the feature accumulator ends at the update of zero. -/
theorem feature_first (c : Dev nD) (i : grid0.Coords) (arg2 : Memref sig .tc .vmem S8192x128 .f32) (harg2 : arg2.IsWhole) (arg3 : Memref sig .tc .vmem S512x4096 .f32) (harg3 : arg3.IsWhole) (arg4 : Memref sig .tc .vmem S4096x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1 .f32) (harg11 : arg11.IsWhole) (hc0 : cond0_0 i) (hc1 : ¬cond0_1 i) (x0 : Vec F S8192x128 .f32) (x1 : Vec F S512x4096 .f32) (x2 : Vec F S4096x512 .f32) (x3 : Vec F S128x128 .f32) (x4 : Vec F S128x128 .f32) (x5 : Vec F S1x128 .f32) (x6 : Vec F S1x128 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay3 x1 (slab i x0) k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x128) hz]
  simp only [View.readAt_eq_ld, harg2.read_unread, harg3.read_unread, View.ld_unit_zero (S := S512x4096) hz,
    View.readCov_unit_zero (S := S512x128) _ hz]
  rfl

/-- First step: the edge accumulator ends at the update of zero. -/
theorem edge_first (c : Dev nD) (i : grid0.Coords) (arg2 : Memref sig .tc .vmem S8192x128 .f32) (harg2 : arg2.IsWhole) (arg3 : Memref sig .tc .vmem S512x4096 .f32) (harg3 : arg3.IsWhole) (arg4 : Memref sig .tc .vmem S4096x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1 .f32) (harg11 : arg11.IsWhole) (hc0 : cond0_0 i) (hc1 : ¬cond0_1 i) (x0 : Vec F S8192x128 .f32) (x1 : Vec F S512x4096 .f32) (x2 : Vec F S4096x512 .f32) (x3 : Vec F S128x128 .f32) (x4 : Vec F S128x128 .f32) (x5 : Vec F S1x128 .f32) (x6 : Vec F S1x128 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay4 x1 x2 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x1) hz]
  simp only [View.readAt_eq_ld, harg3.read_unread, harg4.read_unread, View.ld_unit_zero (S := S512x4096) hz,
    View.ld_unit_zero (S := S4096x512) hz, View.readCov_unit_zero (S := S512x1) _ hz]

/-- Last step: the feature accumulator is updated from what it held. -/
theorem feature_last (c : Dev nD) (i : grid0.Coords) (arg2 : Memref sig .tc .vmem S8192x128 .f32) (harg2 : arg2.IsWhole) (arg3 : Memref sig .tc .vmem S512x4096 .f32) (harg3 : arg3.IsWhole) (arg4 : Memref sig .tc .vmem S4096x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1 .f32) (harg11 : arg11.IsWhole) (hc0 : ¬cond0_0 i) (hc1 : cond0_1 i) (x0 : Vec F S8192x128 .f32) (x1 : Vec F S512x4096 .f32) (x2 : Vec F S4096x512 .f32) (x3 : Vec F S128x128 .f32) (x4 : Vec F S128x128 .f32) (x5 : Vec F S1x128 .f32) (x6 : Vec F S1x128 .f32) (xs0 : Vec F S512x128 .f32) (xs1 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 x1 (slab i x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S512x128) hz]
  simp only [View.readAt_eq_ld, harg2.read_unread, harg3.read_unread, harg10.read_unread, View.ld_unit_zero (S := S512x4096) hz,
    View.ld_unit_zero (S := S512x128) hz]
  rfl

/-- Last step: the edge accumulator is updated from what it held. -/
theorem edge_last (c : Dev nD) (i : grid0.Coords) (arg2 : Memref sig .tc .vmem S8192x128 .f32) (harg2 : arg2.IsWhole) (arg3 : Memref sig .tc .vmem S512x4096 .f32) (harg3 : arg3.IsWhole) (arg4 : Memref sig .tc .vmem S4096x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1 .f32) (harg11 : arg11.IsWhole) (hc0 : ¬cond0_0 i) (hc1 : cond0_1 i) (x0 : Vec F S8192x128 .f32) (x1 : Vec F S512x4096 .f32) (x2 : Vec F S4096x512 .f32) (x3 : Vec F S128x128 .f32) (x4 : Vec F S128x128 .f32) (x5 : Vec F S1x128 .f32) (x6 : Vec F S1x128 .f32) (xs0 : Vec F S512x128 .f32) (xs1 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S512x1) hz]
  simp only [View.readAt_eq_ld, harg3.read_unread, harg4.read_unread, harg11.read_unread, View.ld_unit_zero (S := S512x4096) hz,
    View.ld_unit_zero (S := S4096x512) hz, View.ld_unit_zero (S := S512x1) hz]

/-- Last step: the output block, from the UPDATED accumulators. -/
theorem output_last (c : Dev nD) (i : grid0.Coords) (arg2 : Memref sig .tc .vmem S8192x128 .f32) (harg2 : arg2.IsWhole) (arg3 : Memref sig .tc .vmem S512x4096 .f32) (harg3 : arg3.IsWhole) (arg4 : Memref sig .tc .vmem S4096x512 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1 .f32) (harg11 : arg11.IsWhole) (hc0 : ¬cond0_0 i) (hc1 : cond0_1 i) (x0 : Vec F S8192x128 .f32) (x1 : Vec F S512x4096 .f32) (x2 : Vec F S4096x512 .f32) (x3 : Vec F S128x128 .f32) (x4 : Vec F S128x128 .f32) (x5 : Vec F S1x128 .f32) (x6 : Vec F S1x128 .f32) (xs0 : Vec F S512x128 .f32) (xs1 : Vec F S512x1 .f32) :
    out0_B_7 c i arg2 harg2 arg3 harg3 arg4 harg4 arg5 harg5 arg6 harg6 arg7 harg7 arg8 harg8 arg9 harg9 arg10 harg10 arg11 harg11 hc0 hc1 x0 x1 x2 x3 x4 x5 x6 xs0 xs1
      = k0_pay5 (ownRows i hc1 x0) x3 (k0_pay3 x1 (slab i x0) xs0) x4 (k0_pay4 x1 x2 xs1) x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S512x128) hz]
  simp only [View.readAt_eq_ld, harg2.read_unread, harg3.read_unread, harg4.read_unread, harg5.read_unread, harg6.read_unread,
    harg7.read_unread, harg8.read_unread, harg10.read_unread, harg11.read_unread,
    View.ld_unit_zero (S := S512x4096) hz, View.ld_unit_zero (S := S4096x512) hz, View.ld_unit_zero (S := S512x128) hz,
    View.ld_unit_zero (S := S128x128) hz, View.ld_unit_zero (S := S1x128) hz, View.ld_unit_zero (S := S512x1) hz,
    View.readCov_unit_zero (S := S512x128) _ hz, View.readCov_unit_zero (S := S512x1) _ hz]
  rfl

end Cert.KernelIdeal.Pieces

end
-- ==== Proof.Blocks.lean ====
/-
  What each window's block holds at a grid point, as entries of the argument arrays.

  The grid is 16 × 2, walked row-major: point `t` is row block `i = t / 2`, contraction block `j = t % 2`. The
  adjacency window holds tile `(i, j)` of `A` (512 × 4096), the edge-feature window tile `(j, i)` of `E` (4096 × 512);
  the node features and the four small operands are resident whole. The small operands are cut from `W` and `b` by the
  host before the launch: rows 0 … 127, rows 128 … 255 and row 256 of `W`, and `b` as a one-row matrix.
-/
import proofs.«157487_g52012053954614_cont_9to1_m_572_12_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

theorem lt32 (t : Fin cfg0.N) : t.val < 32 := lt_of_lt_of_eq t.isLt N_0

/-- Where each window's block sits at point `t`, and the point's two coordinates. -/
structure GridFacts (t : Fin cfg0.N) : Prop where
  w0 : win0_0.index t (0 : Fin 2) = 0 ∧ win0_0.index t (1 : Fin 2) = 0
  w1 : win0_1.index t (0 : Fin 2) = t.val / 2 ∧ win0_1.index t (1 : Fin 2) = t.val % 2
  w2 : win0_2.index t (0 : Fin 2) = t.val % 2 ∧ win0_2.index t (1 : Fin 2) = t.val / 2
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 2) = t.val / 2 ∧ win0_7.index t (1 : Fin 2) = 0
  co : ((grid0.coords t) (0 : Fin 2)).val = t.val / 2 ∧ ((grid0.coords t) (1 : Fin 2)).val = t.val % 2

theorem grid_facts : ∀ t : Fin cfg0.N, GridFacts t :=
  fun t =>
    have h := (by decide +kernel : ∀ t : Fin grid0.N,
      (win0_0.index t (0 : Fin 2) = 0 ∧ win0_0.index t (1 : Fin 2) = 0)
      ∧ (win0_1.index t (0 : Fin 2) = t.val / 2 ∧ win0_1.index t (1 : Fin 2) = t.val % 2)
      ∧ (win0_2.index t (0 : Fin 2) = t.val % 2 ∧ win0_2.index t (1 : Fin 2) = t.val / 2)
      ∧ (win0_3.index t (0 : Fin 2) = 0 ∧ win0_3.index t (1 : Fin 2) = 0)
      ∧ (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = 0 ∧ win0_6.index t (1 : Fin 2) = 0)
      ∧ (win0_7.index t (0 : Fin 2) = t.val / 2 ∧ win0_7.index t (1 : Fin 2) = 0)
      ∧ (((grid0.coords t) (0 : Fin 2)).val = t.val / 2 ∧ ((grid0.coords t) (1 : Fin 2)).val = t.val % 2)) t
    ⟨h.1, h.2.1, h.2.2.1, h.2.2.2.1, h.2.2.2.2.1, h.2.2.2.2.2.1, h.2.2.2.2.2.2.1, h.2.2.2.2.2.2.2.1, h.2.2.2.2.2.2.2.2⟩

/-! ## The resident operands: the block is the whole array -/

theorem block0_eq (c : Dev nD) (t : Fin cfg0.N) : (iblk m c 0 t : Vec F S8192x128 .f32) = V m c main_arg0 := by
  funext j
  unfold iblk
  rw [View.read_apply]
  show V m c main_arg0 _ = V m c main_arg0 j
  refine congrArg (V m c main_arg0) (funext fun a => Fin.ext ?_)
  have g := grid_facts t
  match a with
  | ⟨0, _⟩ => show win0_0.index t (0 : Fin 2) * 8192 + 1 * (j 0).val = (j 0).val; rw [g.w0.1]; omega
  | ⟨1, _⟩ => show win0_0.index t (1 : Fin 2) * 128 + 1 * (j 1).val = (j 1).val; rw [g.w0.2]; omega

theorem block3_eq (c : Dev nD) (t : Fin cfg0.N) : (iblk m c 3 t : Vec F S128x128 .f32) = V m c main_call0_v0 := by
  funext j
  unfold iblk
  rw [View.read_apply]
  show V m c main_call0_v0 _ = V m c main_call0_v0 j
  refine congrArg (V m c main_call0_v0) (funext fun a => Fin.ext ?_)
  have g := grid_facts t
  match a with
  | ⟨0, _⟩ => show win0_3.index t (0 : Fin 2) * 128 + 1 * (j 0).val = (j 0).val; rw [g.w3.1]; omega
  | ⟨1, _⟩ => show win0_3.index t (1 : Fin 2) * 128 + 1 * (j 1).val = (j 1).val; rw [g.w3.2]; omega

theorem block4_eq (c : Dev nD) (t : Fin cfg0.N) : (iblk m c 4 t : Vec F S128x128 .f32) = V m c main_call0_v1 := by
  funext j
  unfold iblk
  rw [View.read_apply]
  show V m c main_call0_v1 _ = V m c main_call0_v1 j
  refine congrArg (V m c main_call0_v1) (funext fun a => Fin.ext ?_)
  have g := grid_facts t
  match a with
  | ⟨0, _⟩ => show win0_4.index t (0 : Fin 2) * 128 + 1 * (j 0).val = (j 0).val; rw [g.w4.1]; omega
  | ⟨1, _⟩ => show win0_4.index t (1 : Fin 2) * 128 + 1 * (j 1).val = (j 1).val; rw [g.w4.2]; omega

theorem block5_eq (c : Dev nD) (t : Fin cfg0.N) : (iblk m c 5 t : Vec F S1x128 .f32) = V m c main_call0_v2 := by
  funext j
  unfold iblk
  rw [View.read_apply]
  show V m c main_call0_v2 _ = V m c main_call0_v2 j
  refine congrArg (V m c main_call0_v2) (funext fun a => Fin.ext ?_)
  have g := grid_facts t
  match a with
  | ⟨0, _⟩ => show win0_5.index t (0 : Fin 2) * 1 + 1 * (j 0).val = (j 0).val; rw [g.w5.1]; omega
  | ⟨1, _⟩ => show win0_5.index t (1 : Fin 2) * 128 + 1 * (j 1).val = (j 1).val; rw [g.w5.2]; omega

theorem block6_eq (c : Dev nD) (t : Fin cfg0.N) : (iblk m c 6 t : Vec F S1x128 .f32) = V m c main_call0_v3 := by
  funext j
  unfold iblk
  rw [View.read_apply]
  show V m c main_call0_v3 _ = V m c main_call0_v3 j
  refine congrArg (V m c main_call0_v3) (funext fun a => Fin.ext ?_)
  have g := grid_facts t
  match a with
  | ⟨0, _⟩ => show win0_6.index t (0 : Fin 2) * 1 + 1 * (j 0).val = (j 0).val; rw [g.w6.1]; omega
  | ⟨1, _⟩ => show win0_6.index t (1 : Fin 2) * 128 + 1 * (j 1).val = (j 1).val; rw [g.w6.2]; omega

/-! ## The two streamed tiles -/

/-- Entry `(p, k)` of the adjacency tile at point `t` is `A[512·(t/2) + p, 4096·(t%2) + k]`. -/
theorem adjTile_apply (c : Dev nD) (t : Fin cfg0.N) (p : Fin 512) (k : Fin 4096) :
    (iblk m c 1 t : Vec F S512x4096 .f32) (ix2 p k)
      = m ((c : Thread nD τ).loc main_arg2)
          (ix2 (⟨512 * (t.val / 2) + p.val, by have := lt32 t; have := p.isLt; omega⟩ : Fin 8192)
               (⟨4096 * (t.val % 2) + k.val, by have := k.isLt; omega⟩ : Fin 8192)) := by
  unfold iblk
  rw [View.read_apply]
  show V m c main_arg2 _ = _
  rw [V_main_arg2]
  refine congrArg (m ((c : Thread nD τ).loc main_arg2)) (funext fun a => Fin.ext ?_)
  have g := grid_facts t
  match a with
  | ⟨0, _⟩ => show win0_1.index t (0 : Fin 2) * 512 + 1 * p.val = 512 * (t.val / 2) + p.val; rw [g.w1.1]; omega
  | ⟨1, _⟩ => show win0_1.index t (1 : Fin 2) * 4096 + 1 * k.val = 4096 * (t.val % 2) + k.val; rw [g.w1.2]; omega

/-- Entry `(k, p)` of the edge-feature tile at point `t` is `E[4096·(t%2) + k, 512·(t/2) + p]`. -/
theorem edgeTile_apply (c : Dev nD) (t : Fin cfg0.N) (k : Fin 4096) (p : Fin 512) :
    (iblk m c 2 t : Vec F S4096x512 .f32) (ix2 k p)
      = m ((c : Thread nD τ).loc main_arg1)
          (ix2 (⟨4096 * (t.val % 2) + k.val, by have := k.isLt; omega⟩ : Fin 8192)
               (⟨512 * (t.val / 2) + p.val, by have := lt32 t; have := p.isLt; omega⟩ : Fin 8192)) := by
  unfold iblk
  rw [View.read_apply]
  show V m c main_arg1 _ = _
  rw [V_main_arg1]
  refine congrArg (m ((c : Thread nD τ).loc main_arg1)) (funext fun a => Fin.ext ?_)
  have g := grid_facts t
  match a with
  | ⟨0, _⟩ => show win0_2.index t (0 : Fin 2) * 4096 + 1 * k.val = 4096 * (t.val % 2) + k.val; rw [g.w2.1]; omega
  | ⟨1, _⟩ => show win0_2.index t (1 : Fin 2) * 512 + 1 * p.val = 512 * (t.val / 2) + p.val; rw [g.w2.2]; omega

/-! ## The operands the host cuts from `W` and `b` -/

theorem w1_entry (c : Dev nD) :
    (V m c main_call0_v0 : S128x128.Idx → Elt F .f32)
      = extractStridedSlice S128x128 ![0, 0] (m ((c : Thread nD τ).loc main_arg3)) slices_S257x128_S128x128_0_0 := by
  dsimp only [V, hostOps0]; after_results; rfl

theorem w2_entry (c : Dev nD) :
    (V m c main_call0_v1 : S128x128.Idx → Elt F .f32)
      = extractStridedSlice S128x128 ![128, 0] (m ((c : Thread nD τ).loc main_arg3)) slices_S257x128_S128x128_128_0 := by
  dsimp only [V, hostOps0]; after_results; rfl

theorem w3_entry (c : Dev nD) :
    (V m c main_call0_v2 : S1x128.Idx → Elt F .f32)
      = extractStridedSlice S1x128 ![256, 0] (m ((c : Thread nD τ).loc main_arg3)) slices_S257x128_S1x128_256_0 := by
  dsimp only [V, hostOps0]; after_results; rfl

theorem bias_entry (c : Dev nD) :
    (V m c main_call0_v3 : S1x128.Idx → Elt F .f32)
      = shapeCast S1x128 (m ((c : Thread nD τ).loc main_arg4)) shapeCasts_S128_S1x128 := by
  dsimp only [V, hostOps0]; after_results; rfl

end Cert.KernelIdeal.Blocks

end
-- ==== Proof.Payloads.lean ====
/-
  The five stored values of the kernel body, read at one element over the extended reals.

  With `a` a 512 × 4096 tile of the adjacency, `x` a 4096 × 128 slab of node features, `e` a 4096 × 512 tile of edge
  features and `s`, `u` what the two accumulators held before:
    * the feature accumulator becomes `s[p,q] + ∑ₖ a[p,k]·x[k,q]`;
    * the edge accumulator becomes `u[p,0] + ∑ₖ a[p,k]·e[k,p]` (the tile of `E` is read transposed; the change of
      float format on the way is the identity on the extended reals);
    * both resets store `0`;
    * the output row block is `(∑ₖ y[p,k]·w₁[k,q] + ∑ₖ s[p,k]·w₂[k,q]) + u[p,0]·w₃[0,q] + b[0,q]`.
-/
import proofs.«157487_g52012053954614_cont_9to1_m_572_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products at an element -/

theorem lhsA_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhsA_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhsA_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhsA_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The tile product `a · x` (512 × 4096 by 4096 × 128) into a zero accumulator, at `(p, q)`: `∑ₖ a[p,k]·x[k,q]`. -/
theorem tileProduct_apply (a : FVec Ideal S512x4096 .f32) (x : FVec Ideal S4096x128 .f32) (p : Fin 512) (q : Fin 128) :
    matmul dot_S512x4096_S4096x128_S512x128_1_0_0_1_n_n none a x (constant S512x128 .f32 0x00000000#32) (ix2 p q)
      = ∑ k : Fin 4096, a (ix2 p k) * x (ix2 k q) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q) ((contrEquiv1 dot_S512x4096_S4096x128_S512x128_1_0_0_1_n_n 4096 rfl rfl).symm k) = ix2 p k := funext fun a => Fin.ext (by
    match a with
    | ⟨0, _⟩ => exact lhsA_0 _ _
    | ⟨1, _⟩ => exact (lhsA_1 _ _).trans hk)
  have er : dot_S512x4096_S4096x128_S512x128_1_0_0_1_n_n.rhsIdx (ix2 p q) ((contrEquiv1 dot_S512x4096_S4096x128_S512x128_1_0_0_1_n_n 4096 rfl rfl).symm k) = ix2 k q := funext fun a => Fin.ext (by
    match a with
    | ⟨0, _⟩ => exact (rhsA_0 _ _).trans hk
    | ⟨1, _⟩ => exact rhsA_1 _ _)
  rw [el, er]

theorem lhsW_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsW_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsW_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsW_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- A row block times a weight block (512 × 128 by 128 × 128) into a zero accumulator, at `(p, q)`. -/
theorem weightProduct_apply (y : FVec Ideal S512x128 .f32) (w : FVec Ideal S128x128 .f32) (p : Fin 512) (q : Fin 128) :
    matmul dot_S512x128_S128x128_S512x128_1_0_0_1_n_n none y w (constant S512x128 .f32 0x00000000#32) (ix2 p q)
      = ∑ k : Fin 128, y (ix2 p k) * w (ix2 k q) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ## Layout steps of the body at an element -/

/-- A column vector of 512 entries made from a vector: entry `(p, 0)` is entry `p`. -/
theorem column_apply {α : Type} (v : S512.Idx → α) (h : S512.ShapeCasts S512x1) (p : Fin 512) (z : Fin 1) :
    shapeCast S512x1 v h (ix2 p z) = v (ix1 p) :=
  shapeCast_apply v h _ _ (by
    have hz : z.val = 0 := by omega
    rw [Shape.rowMajor_val_two, Shape.rowMajor_val_one]
    show p.val = p.val * 1 + z.val
    omega)

/-- A column broadcast along the lanes: entry `(p, q)` is the column's entry `(p, 0)`. -/
theorem columnBroadcast_apply {α : Type} (v : S512x1.Idx → α) (h : S512x1.Broadcasts S512x128) (p : Fin 512) (q : Fin 128) :
    broadcastTo S512x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The lane sum of a 512 × 4096 tile from the zero word, at row `p`: `∑ₖ v[p,k]`. -/
theorem rowSum_apply (v : FVec Ideal S512x4096 .f32) (hφ : FKind.Formats .f32)
    (hacc : (0x00000000#32 : BitVec 32) = FKind.add.neutral .f32 hφ) (p : Fin 512) :
    multiReduction .add [1] S512 v 0x00000000#32 reduces_S512x4096_S512 hφ hacc (ix1 p) = ∑ k : Fin 4096, v (ix2 p k) :=
  (Ideal.multiReduction_add_single v 0x00000000#32 reduces_S512x4096_S512 hφ hacc (ix1 p)).trans
    (Finset.sum_congr rfl fun k _ => congrArg v
      (funext fun ax => Fin.ext (by match ax with | ⟨0, _⟩ => rfl | ⟨1, _⟩ => rfl)))

/-! ## The stored values -/

/-- Both resets store zero. -/
theorem featureReset_apply (i : S512x128.Idx) : k0_pay1 (F := Ideal) i = 0 := by
  unfold k0_pay1
  rw [shapeCast_self]
  exact Ideal.ofBits_zero_f32

theorem edgeReset_apply (i : S512x1.Idx) : k0_pay2 (F := Ideal) i = 0 := by
  unfold k0_pay2
  rw [shapeCast_self]
  exact Ideal.ofBits_zero_f32

/-- The feature accumulator's update at `(p, q)`. -/
theorem featureStep_apply (a : Vec Ideal S512x4096 .f32) (x : Vec Ideal S4096x128 .f32) (s : Vec Ideal S512x128 .f32)
    (p : Fin 512) (q : Fin 128) :
    k0_pay3 a x s (ix2 p q) = s (ix2 p q) + ∑ k : Fin 4096, a (ix2 p k) * x (ix2 k q) := by
  unfold k0_pay3
  rw [shapeCast_self]
  exact congrArg (s (ix2 p q) + ·) (tileProduct_apply a x p q)

/-- The edge accumulator's update at `(p, 0)`: the tile of `E` enters transposed. -/
theorem edgeStep_apply (a : Vec Ideal S512x4096 .f32) (e : Vec Ideal S4096x512 .f32) (u : Vec Ideal S512x1 .f32)
    (p : Fin 512) (z : Fin 1) :
    k0_pay4 a e u (ix2 p z) = u (ix2 p z) + ∑ k : Fin 4096, a (ix2 p k) * e (ix2 k p) := by
  unfold k0_pay4
  rw [shapeCast_self]
  refine congrArg (u (ix2 p z) + ·) ((column_apply _ shapeCasts_S512_S512x1 p z).trans ((rowSum_apply _ (.inl rfl) rfl p).trans ?_))
  refine Finset.sum_congr rfl fun k _ => ?_
  exact congrArg (a (ix2 p k) * ·) (transpose_ix2_apply e transposes_S4096x512_p1_0_S512x4096 p k)

/-- The output row block at `(p, q)`. -/
theorem output_apply (y : Vec Ideal S512x128 .f32) (w1 : Vec Ideal S128x128 .f32) (s : Vec Ideal S512x128 .f32)
    (w2 : Vec Ideal S128x128 .f32) (u : Vec Ideal S512x1 .f32) (w3 b : Vec Ideal S1x128 .f32) (p : Fin 512) (q : Fin 128) :
    k0_pay5 y w1 s w2 u w3 b (ix2 p q)
      = ((∑ k : Fin 128, y (ix2 p k) * w1 (ix2 k q) + ∑ k : Fin 128, s (ix2 p k) * w2 (ix2 k q))
          + u (ix2 p (0 : Fin 1)) * w3 (ix2 (0 : Fin 1) q)) + b (ix2 (0 : Fin 1) q) := by
  unfold k0_pay5
  simp only [shapeCast_self]
  exact congrArg₂ (· + ·)
    (congrArg₂ (· + ·)
      (congrArg₂ (· + ·) (weightProduct_apply y w1 p q) (weightProduct_apply s w2 p q))
      (congrArg₂ (· * ·) (columnBroadcast_apply u broadcasts_S512x1_S512x128 p q)
        (broadcastTo_1b_ab_apply w3 broadcasts_S1x128_S512x128 p q)))
    (broadcastTo_1b_ab_apply b broadcasts_S1x128_S512x128 p q)

end Cert.KernelIdeal.Payload

end
-- ==== Proof.Readout.lean ====
/-
  The readout, as one function of its five argument arrays, and the two re-associations of finite sums that the
  tiled kernel and the concatenating reference differ by.

  For node features `X` (8192 × 128), edge features `E` and adjacency `A` (8192 × 8192), weights `W` (257 × 128) and
  bias `b` (128), the readout at row `r` and output column `o` is

      ∑ₖ X[r,k]·W[k,o]  +  ∑_d (∑ⱼ A[r,j]·X[j,d])·W[128+d,o]  +  (∑ⱼ A[r,j]·E[j,r])·W[256,o]  +  b[o]

  over the extended reals. Only commutativity and associativity of `+` are used below (the extended reals are a
  commutative additive monoid), so no finiteness of the inputs is needed.
-/
import Idealize.ShloMosaic.PureOps.Ideal
import Idealize.ShloMosaic.Lib.ValueIdx
import Mathlib.Algebra.BigOperators.Fin

noncomputable section

open scoped BigOperators

namespace Cert.Readout

open Idealize.ShloMosaic Idealize.ShloMosaic.ValueIdx

/-- Row `r` of `A · X` at feature `d`: the neighbour aggregation. -/
def agg (A : (⟨2, ![8192, 8192]⟩ : Shape).Idx → EReal) (X : (⟨2, ![8192, 128]⟩ : Shape).Idx → EReal)
    (r : Fin 8192) (d : Fin 128) : EReal :=
  ∑ j : Fin 8192, A (ix2 r j) * X (ix2 j d)

/-- The diagonal entry `r` of `A · E`: the row sum of `A ∘ Eᵀ`. -/
def edgeSum (A E : (⟨2, ![8192, 8192]⟩ : Shape).Idx → EReal) (r : Fin 8192) : EReal :=
  ∑ j : Fin 8192, A (ix2 r j) * E (ix2 j r)

/-- The readout at row `r` and output column `o`. -/
def rowOut (X : (⟨2, ![8192, 128]⟩ : Shape).Idx → EReal) (E A : (⟨2, ![8192, 8192]⟩ : Shape).Idx → EReal)
    (W : (⟨2, ![257, 128]⟩ : Shape).Idx → EReal) (b : (⟨1, ![128]⟩ : Shape).Idx → EReal) (r : Fin 8192) (o : Fin 128) : EReal :=
  ((∑ k : Fin 128, X (ix2 r k) * W (ix2 (⟨k.val, by have := k.isLt; omega⟩ : Fin 257) o)
      + ∑ d : Fin 128, agg A X r d * W (ix2 (⟨128 + d.val, by have := d.isLt; omega⟩ : Fin 257) o))
    + edgeSum A E r * W (ix2 (⟨256, by omega⟩ : Fin 257) o))
  + b (ix1 o)

/-- The readout as one function of the argument arrays. -/
def G (X : (⟨2, ![8192, 128]⟩ : Shape).Idx → EReal) (E A : (⟨2, ![8192, 8192]⟩ : Shape).Idx → EReal)
    (W : (⟨2, ![257, 128]⟩ : Shape).Idx → EReal) (b : (⟨1, ![128]⟩ : Shape).Idx → EReal) :
    (⟨2, ![8192, 128]⟩ : Shape).Idx → EReal := fun i => rowOut X E A W b (i 0) (i 1)

theorem G_apply (X : (⟨2, ![8192, 128]⟩ : Shape).Idx → EReal) (E A : (⟨2, ![8192, 8192]⟩ : Shape).Idx → EReal)
    (W : (⟨2, ![257, 128]⟩ : Shape).Idx → EReal) (b : (⟨1, ![128]⟩ : Shape).Idx → EReal) (r : Fin 8192) (o : Fin 128) :
    G X E A W b (ix2 r o) = rowOut X E A W b r o := rfl

/-- A sum over 8192 terms is the sum of its two halves of 4096. -/
theorem sum_halves {M : Type*} [AddCommMonoid M] (f : Fin 8192 → M) :
    ∑ j : Fin 8192, f j
      = ∑ j : Fin 4096, f ⟨j.val, by have := j.isLt; omega⟩ + ∑ j : Fin 4096, f ⟨4096 + j.val, by have := j.isLt; omega⟩ :=
  Fin.sum_univ_add (a := 4096) (b := 4096) f

/-- A sum over 257 terms is the sum over the first 128, the next 128, and the last one. -/
theorem sum_concat {M : Type*} [AddCommMonoid M] (f : Fin 257 → M) :
    ∑ k : Fin 257, f k
      = (∑ k : Fin 128, f ⟨k.val, by have := k.isLt; omega⟩ + ∑ k : Fin 128, f ⟨128 + k.val, by have := k.isLt; omega⟩)
        + f ⟨256, by omega⟩ := by
  rw [Fin.sum_univ_castSucc (n := 256) f]
  congr 1
  exact Fin.sum_univ_add (a := 128) (b := 128) fun k : Fin (128 + 128) => f (Fin.castSucc k)

/-- The aggregation, accumulated as the kernel does: from zero, the first 4096 neighbours, then the last 4096. -/
theorem agg_split (A : (⟨2, ![8192, 8192]⟩ : Shape).Idx → EReal) (X : (⟨2, ![8192, 128]⟩ : Shape).Idx → EReal)
    (r : Fin 8192) (d : Fin 128) :
    agg A X r d
      = (0 + ∑ j : Fin 4096, A (ix2 r (⟨j.val, by have := j.isLt; omega⟩ : Fin 8192)) * X (ix2 (⟨j.val, by have := j.isLt; omega⟩ : Fin 8192) d))
        + ∑ j : Fin 4096, A (ix2 r (⟨4096 + j.val, by have := j.isLt; omega⟩ : Fin 8192))
            * X (ix2 (⟨4096 + j.val, by have := j.isLt; omega⟩ : Fin 8192) d) := by
  unfold agg
  rw [sum_halves, zero_add]

/-- The edge row sum, accumulated the same way. -/
theorem edgeSum_split (A E : (⟨2, ![8192, 8192]⟩ : Shape).Idx → EReal) (r : Fin 8192) :
    edgeSum A E r
      = (0 + ∑ j : Fin 4096, A (ix2 r (⟨j.val, by have := j.isLt; omega⟩ : Fin 8192)) * E (ix2 (⟨j.val, by have := j.isLt; omega⟩ : Fin 8192) r))
        + ∑ j : Fin 4096, A (ix2 r (⟨4096 + j.val, by have := j.isLt; omega⟩ : Fin 8192))
            * E (ix2 (⟨4096 + j.val, by have := j.isLt; omega⟩ : Fin 8192) r) := by
  unfold edgeSum
  rw [sum_halves, zero_add]

end Cert.Readout

end
-- ==== Proof.RowBlock.lean ====
/-
  One output row block of the kernel is the readout's rows.

  The last contraction step computes its output block from the node-feature rows `y` of the block, the weight blocks
  and the two accumulators AFTER both steps: the first step left `0 + a₀·x₀` and `0 + rowsum(a₀ ∘ e₀ᵀ)`, the last adds
  `a₁·x₁` and `rowsum(a₁ ∘ e₁ᵀ)`. When the tiles are the entries of `A`, `E`, `X`, `W`, `b` that the pipeline
  stages (row `r` of `A`, its two halves; column `r` of `E`; the two slabs of `X`), the value at `(p, q)` is the
  readout at `(r, q)` (`Cert.Readout.agg_split`, `edgeSum_split`).
-/
import proofs.«157487_g52012053954614_cont_9to1_m_572_12_alg».proof.Proof.Payloads
import proofs.«157487_g52012053954614_cont_9to1_m_572_12_alg».proof.Proof.Readout

noncomputable section

open scoped BigOperators

namespace Cert.KernelIdeal.RowBlock

open Cert.KernelIdeal Cert.KernelIdeal.Gen Cert.KernelIdeal.Payload Idealize.ShloMosaic Idealize.ShloMosaic.ValueIdx
open Cert.Readout

/-- The output block after the two contraction steps, at `(p, q)`, over the tiles the steps read. -/
theorem twoSteps_apply (y : Vec Ideal S512x128 .f32) (w1 w2 : Vec Ideal S128x128 .f32) (w3 b : Vec Ideal S1x128 .f32)
    (a0 a1 : Vec Ideal S512x4096 .f32) (x0 x1 : Vec Ideal S4096x128 .f32) (e0 e1 : Vec Ideal S4096x512 .f32)
    (p : Fin 512) (q : Fin 128) :
    k0_pay5 y w1 (k0_pay3 a1 x1 (k0_pay3 a0 x0 (k0_pay1 (F := Ideal)))) w2 (k0_pay4 a1 e1 (k0_pay4 a0 e0 (k0_pay2 (F := Ideal)))) w3 b (ix2 p q)
      = ((∑ k : Fin 128, y (ix2 p k) * w1 (ix2 k q)
          + ∑ d : Fin 128, ((0 + ∑ j : Fin 4096, a0 (ix2 p j) * x0 (ix2 j d)) + ∑ j : Fin 4096, a1 (ix2 p j) * x1 (ix2 j d))
              * w2 (ix2 d q))
          + ((0 + ∑ j : Fin 4096, a0 (ix2 p j) * e0 (ix2 j p)) + ∑ j : Fin 4096, a1 (ix2 p j) * e1 (ix2 j p))
              * w3 (ix2 (0 : Fin 1) q))
        + b (ix2 (0 : Fin 1) q) := by
  rw [output_apply]
  simp only [featureStep_apply, edgeStep_apply, featureReset_apply, edgeReset_apply]

/-- With the tiles read off the argument arrays, that value is the readout at row `r`. -/
theorem twoSteps_readout (X : (⟨2, ![8192, 128]⟩ : Shape).Idx → EReal) (E A : (⟨2, ![8192, 8192]⟩ : Shape).Idx → EReal)
    (W : (⟨2, ![257, 128]⟩ : Shape).Idx → EReal) (bias : (⟨1, ![128]⟩ : Shape).Idx → EReal)
    (y : Vec Ideal S512x128 .f32) (w1 w2 : Vec Ideal S128x128 .f32) (w3 b : Vec Ideal S1x128 .f32)
    (a0 a1 : Vec Ideal S512x4096 .f32) (x0 x1 : Vec Ideal S4096x128 .f32) (e0 e1 : Vec Ideal S4096x512 .f32)
    (r : Fin 8192) (p : Fin 512) (q : Fin 128)
    (hy : ∀ k : Fin 128, y (ix2 p k) = X (ix2 r k))
    (hw1 : ∀ k : Fin 128, w1 (ix2 k q) = W (ix2 (⟨k.val, by have := k.isLt; omega⟩ : Fin 257) q))
    (hw2 : ∀ k : Fin 128, w2 (ix2 k q) = W (ix2 (⟨128 + k.val, by have := k.isLt; omega⟩ : Fin 257) q))
    (hw3 : w3 (ix2 (0 : Fin 1) q) = W (ix2 (⟨256, by omega⟩ : Fin 257) q))
    (hb : b (ix2 (0 : Fin 1) q) = bias (ix1 q))
    (ha0 : ∀ j : Fin 4096, a0 (ix2 p j) = A (ix2 r (⟨j.val, by have := j.isLt; omega⟩ : Fin 8192)))
    (ha1 : ∀ j : Fin 4096, a1 (ix2 p j) = A (ix2 r (⟨4096 + j.val, by have := j.isLt; omega⟩ : Fin 8192)))
    (hx0 : ∀ (j : Fin 4096) (d : Fin 128), x0 (ix2 j d) = X (ix2 (⟨j.val, by have := j.isLt; omega⟩ : Fin 8192) d))
    (hx1 : ∀ (j : Fin 4096) (d : Fin 128), x1 (ix2 j d) = X (ix2 (⟨4096 + j.val, by have := j.isLt; omega⟩ : Fin 8192) d))
    (he0 : ∀ j : Fin 4096, e0 (ix2 j p) = E (ix2 (⟨j.val, by have := j.isLt; omega⟩ : Fin 8192) r))
    (he1 : ∀ j : Fin 4096, e1 (ix2 j p) = E (ix2 (⟨4096 + j.val, by have := j.isLt; omega⟩ : Fin 8192) r)) :
    k0_pay5 y w1 (k0_pay3 a1 x1 (k0_pay3 a0 x0 (k0_pay1 (F := Ideal)))) w2 (k0_pay4 a1 e1 (k0_pay4 a0 e0 (k0_pay2 (F := Ideal)))) w3 b (ix2 p q)
      = rowOut X E A W bias r q := by
  rw [twoSteps_apply]
  unfold rowOut
  simp only [agg_split, edgeSum_split, hy, hw1, hw2, hw3, hb, ha0, ha1, hx0, hx1, he0, he1]

end Cert.KernelIdeal.RowBlock

end
-- ==== Proof.KernelValue.lean ====
/-
  The kernel's result array is the readout of the argument arrays.

  Row block `i` of the result is written back once, after the last contraction step (grid point `2i + 1`); what is
  written is the output block of that step, computed from the accumulators the step before (point `2i`) left. Reading
  every staged tile off the argument arrays identifies that block with rows `512·i …` of `Cert.Readout.G`; the sixteen
  row blocks cover the array.
-/
import proofs.«157487_g52012053954614_cont_9to1_m_572_12_alg».proof.Proof.Gen.KernelIdeal.Value
import proofs.«157487_g52012053954614_cont_9to1_m_572_12_alg».proof.Proof.Pieces
import proofs.«157487_g52012053954614_cont_9to1_m_572_12_alg».proof.Proof.Blocks
import proofs.«157487_g52012053954614_cont_9to1_m_572_12_alg».proof.Proof.RowBlock

noncomputable section

namespace Cert.KernelIdeal.Result

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.KernelIdeal.Blocks Cert.Readout

variable (m : (ℓ : Loc nD τ sig) → Buf (Elt Ideal) ℓ) (ρ : Dev nD → PrngReg)

/-! ## The staged blocks at a point, at their literal types -/

abbrev nodeAll (c : Dev nD) (t : Fin cfg0.N) : Vec Ideal S8192x128 .f32 := iblk m c 0 t
abbrev adjTile (c : Dev nD) (t : Fin cfg0.N) : Vec Ideal S512x4096 .f32 := iblk m c 1 t
abbrev edgeTile (c : Dev nD) (t : Fin cfg0.N) : Vec Ideal S4096x512 .f32 := iblk m c 2 t
abbrev w1Blk (c : Dev nD) (t : Fin cfg0.N) : Vec Ideal S128x128 .f32 := iblk m c 3 t
abbrev w2Blk (c : Dev nD) (t : Fin cfg0.N) : Vec Ideal S128x128 .f32 := iblk m c 4 t
abbrev w3Blk (c : Dev nD) (t : Fin cfg0.N) : Vec Ideal S1x128 .f32 := iblk m c 5 t
abbrev biasBlk (c : Dev nD) (t : Fin cfg0.N) : Vec Ideal S1x128 .f32 := iblk m c 6 t

/-- The readout of the five argument arrays as core `c` was launched with them. -/
abbrev readout (c : Dev nD) : Buf (Elt Ideal) ((c : Thread nD τ).loc main_v0) :=
  G (m ((c : Thread nD τ).loc main_arg0)) (m ((c : Thread nD τ).loc main_arg1)) (m ((c : Thread nD τ).loc main_arg2))
    (m ((c : Thread nD τ).loc main_arg3)) (m ((c : Thread nD τ).loc main_arg4))

/-! ## Rows of the resident node features -/

/-- Row `j` of the contraction slab at a point whose contraction block is `J` is row `4096·J + j` of the array. -/
theorem slab_apply (i : grid0.Coords) (x : Vec Ideal S8192x128 .f32) (J : Nat) (hJ : (i (1 : Fin 2)).val = J) (hJ2 : J < 2)
    (j : Fin 4096) (d : Fin 128) :
    Pieces.slab i x (ix2 j d) = x (ix2 (⟨4096 * J + j.val, by have := j.isLt; omega⟩ : Fin 8192) d) := by
  show x ((Rect.unit (s := S8192x128) (k0_off1 i) S4096x128.size (k0_off1_inb i)).idx (ix2 j d)) = _
  refine congrArg x (funext fun a => Fin.ext ?_)
  match a with
  | ⟨0, _⟩ =>
    show k0_off1 i (0 : Fin 2) + 1 * j.val = 4096 * J + j.val
    rw [k0_off1_eq]
    show 4096 * (i (1 : Fin 2)).val + 1 * j.val = 4096 * J + j.val
    rw [hJ]; omega
  | ⟨1, _⟩ =>
    show k0_off1 i (1 : Fin 2) + 1 * d.val = d.val
    rw [k0_off1_eq]
    show 0 + 1 * d.val = d.val
    omega

/-- Row `p` of the block's own rows at a point whose row block is `I` is row `512·I + p` of the array. -/
theorem ownRows_apply (i : grid0.Coords) (hc1 : cond0_1 i) (x : Vec Ideal S8192x128 .f32) (I : Nat)
    (hI : (i (0 : Fin 2)).val = I) (hI2 : I < 16) (p : Fin 512) (k : Fin 128) :
    Pieces.ownRows i hc1 x (ix2 p k) = x (ix2 (⟨512 * I + p.val, by have := p.isLt; omega⟩ : Fin 8192) k) := by
  show x ((Rect.unit (s := S8192x128) (k0_off2 i) S512x128.size (k0_off2_inb i hc1)).idx (ix2 p k)) = _
  refine congrArg x (funext fun a => Fin.ext ?_)
  match a with
  | ⟨0, _⟩ =>
    show k0_off2 i (0 : Fin 2) + 1 * p.val = 512 * I + p.val
    rw [k0_off2_eq]
    show 512 * (i (0 : Fin 2)).val + 1 * p.val = 512 * I + p.val
    rw [hI]; omega
  | ⟨1, _⟩ =>
    show k0_off2 i (1 : Fin 2) + 1 * k.val = k.val
    rw [k0_off2_eq]
    show 0 + 1 * k.val = k.val
    omega

/-! ## What a last contraction step leaves in the output block -/

/-- After the last contraction step of row block `t / 2`, the output block is the two-step value over the tiles of
    that step and of the step before. -/
theorem outBlock_eq (c : Dev nD) (t : Fin cfg0.N) (h1 : t.val % 2 = 1) (t' : Fin cfg0.N) (ht' : t'.val = t.val - 1) :
    (outsAt0 m c t.val t.isLt).1
      = k0_pay5 (Pieces.ownRows (grid0.coords t) ((hcond0_1 t).mpr h1) (nodeAll m c t)) (w1Blk m c t)
          (k0_pay3 (adjTile m c t) (Pieces.slab (grid0.coords t) (nodeAll m c t))
            (k0_pay3 (adjTile m c t') (Pieces.slab (grid0.coords t') (nodeAll m c t')) (k0_pay1 (F := Ideal))))
          (w2Blk m c t)
          (k0_pay4 (adjTile m c t) (edgeTile m c t) (k0_pay4 (adjTile m c t') (edgeTile m c t') (k0_pay2 (F := Ideal))))
          (w3Blk m c t) (biasBlk m c t) := by
  have h0 : ¬t.val % 2 = 0 := by omega
  have h0' : t'.val % 2 = 0 := by rw [ht']; omega
  have h1' : ¬t'.val % 2 = 1 := by rw [ht']; omega
  have hprev : outsAt0 m c (t.val - 1) (Nat.lt_of_le_of_lt (Nat.sub_le _ _) t.isLt) = outsAt0 m c t'.val t'.isLt := by
    congr 1
    exact ht'.symm
  rw [outsAt0_B m c t h0 h1]
  dsimp only
  rw [hprev, outsAt0_A m c t' h0' h1']
  dsimp only
  rw [Pieces.output_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (nodeAll m c t) (adjTile m c t) (edgeTile m c t) (w1Blk m c t) (w2Blk m c t) (w3Blk m c t) (biasBlk m c t),
    Pieces.feature_first c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) scM0_1 (Memref.isWhole_whole _) ((hcond0_0 t').mpr h0') (fun h => h1' ((hcond0_1 t').mp h)) (nodeAll m c t') (adjTile m c t') (edgeTile m c t') (w1Blk m c t') (w2Blk m c t') (w3Blk m c t') (biasBlk m c t'),
    Pieces.edge_first c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) scM0_1 (Memref.isWhole_whole _) ((hcond0_0 t').mpr h0') (fun h => h1' ((hcond0_1 t').mp h)) (nodeAll m c t') (adjTile m c t') (edgeTile m c t') (w1Blk m c t') (w2Blk m c t') (w3Blk m c t') (biasBlk m c t')]

/-! ## Its entries are the readout's -/

theorem ix2_congr {n0 n1 : Nat} {a a' : Fin n0} {b b' : Fin n1} (ha : a.val = a'.val) (hb : b.val = b'.val) :
    ix2 a b = ix2 a' b' := by
  cases Fin.ext ha; cases Fin.ext hb; rfl

/-- The resident node features are the argument as launched. -/
theorem nodeAll_eq (c : Dev nD) (t : Fin cfg0.N) : nodeAll m c t = m ((c : Thread nD τ).loc main_arg0) :=
  (block0_eq m c t).trans (V_main_arg0 m c)

/-- Entry `(p, q)` of the block a last contraction step leaves is the readout at row `512·(t/2) + p`. -/
theorem outBlock_apply (c : Dev nD) (t : Fin cfg0.N) (h1 : t.val % 2 = 1) (p : Fin 512) (q : Fin 128) :
    (outsAt0 m c t.val t.isLt).1 (ix2 p q)
      = readout m c (ix2 (⟨512 * (t.val / 2) + p.val, by have := lt32 t; have := p.isLt; omega⟩ : Fin 8192) q) := by
  have hN := lt32 t
  have hp := p.isLt
  have hpos : t.val - 1 < cfg0.N := Nat.lt_of_le_of_lt (Nat.sub_le _ _) t.isLt
  obtain ⟨t', ht'⟩ : ∃ t' : Fin cfg0.N, t'.val = t.val - 1 := ⟨⟨t.val - 1, hpos⟩, rfl⟩
  have g := grid_facts t
  have g' := grid_facts t'
  rw [outBlock_eq m c t h1 t' ht']
  show _ = G _ _ _ _ _ (ix2 _ q)
  rw [G_apply]
  refine RowBlock.twoSteps_readout _ _ _ _ _ _ _ _ _ _ _ _ _ _ _ _ _ p q ?_ ?_ ?_ ?_ ?_ ?_ ?_ ?_ ?_ ?_ ?_
  · intro k
    rw [nodeAll_eq]
    exact ownRows_apply (grid0.coords t) _ _ (t.val / 2) g.co.1 (by omega) p k
  · intro k
    rw [show w1Blk m c t = _ from (block3_eq m c t).trans (w1_entry m c)]
    exact slice2_axis0_apply 0 _ _ k q _ (by show k.val = 0 + k.val; omega)
  · intro k
    rw [show w2Blk m c t = _ from (block4_eq m c t).trans (w2_entry m c)]
    exact slice2_axis0_apply 128 _ _ k q _ rfl
  · rw [show w3Blk m c t = _ from (block5_eq m c t).trans (w3_entry m c)]
    exact slice2_axis0_apply 256 _ _ (0 : Fin 1) q _ rfl
  · rw [show biasBlk m c t = _ from (block6_eq m c t).trans (bias_entry m c)]
    exact shapeCast_a_1a_apply _ _ (0 : Fin 1) q
  · intro j
    refine (adjTile_apply m c t' p j).trans (congrArg _ (ix2_congr ?_ ?_))
    · show 512 * (t'.val / 2) + p.val = 512 * (t.val / 2) + p.val
      omega
    · show 4096 * (t'.val % 2) + j.val = j.val
      omega
  · intro j
    refine (adjTile_apply m c t p j).trans (congrArg _ (ix2_congr rfl ?_))
    show 4096 * (t.val % 2) + j.val = 4096 + j.val
    omega
  · intro j d
    rw [nodeAll_eq]
    refine (slab_apply (grid0.coords t') _ 0 (g'.co.2.trans (by omega)) (by omega) j d).trans (congrArg _ (ix2_congr ?_ rfl))
    show 4096 * 0 + j.val = j.val
    omega
  · intro j d
    rw [nodeAll_eq]
    refine (slab_apply (grid0.coords t) _ 1 (g.co.2.trans h1) (by omega) j d).trans (congrArg _ (ix2_congr ?_ rfl))
    show 4096 * 1 + j.val = 4096 + j.val
    omega
  · intro j
    refine (edgeTile_apply m c t' j p).trans (congrArg _ (ix2_congr ?_ ?_))
    · show 4096 * (t'.val % 2) + j.val = j.val
      omega
    · show 512 * (t'.val / 2) + p.val = 512 * (t.val / 2) + p.val
      omega
  · intro j
    refine (edgeTile_apply m c t j p).trans (congrArg _ (ix2_congr ?_ rfl))
    show 4096 * (t.val % 2) + j.val = 4096 + j.val
    omega

/-! ## The write-backs, the cover, the array -/

/-- What a write-back point writes is its block of the readout. -/
theorem flushed_fun (c : Dev nD) (t : Fin cfg0.N) (h1 : t.val % 2 = 1) (j : S512x128.Idx) :
    (cfg0.win 7).cut (grid0.coords t) ((outsAt0 m c t.val t.isLt).1) j = readout m c (((cfg0.win 7).blk t).view.emb j) := by
  obtain ⟨p, q, rfl⟩ : ∃ (p : Fin 512) (q : Fin 128), j = ix2 p q := ⟨j 0, j 1, eq_ix2 j⟩
  show (outsAt0 m c t.val t.isLt).1 (ix2 p q) = _
  rw [outBlock_apply m c t h1 p q]
  refine congrArg (readout m c) (funext fun a => Fin.ext ?_)
  have g := grid_facts t
  match a with
  | ⟨0, _⟩ =>
    show 512 * (t.val / 2) + p.val = win0_7.index t (0 : Fin 2) * 512 + 1 * p.val
    rw [g.w7.1]; omega
  | ⟨1, _⟩ =>
    show q.val = win0_7.index t (1 : Fin 2) * 128 + 1 * q.val
    rw [g.w7.2]; omega

theorem flushed_eq (c : Dev nD) (t : Fin cfg0.N) (hf : (cfg0.win 7).flush t = true) :
    (dats m 0 c).flushed 7 t = ((cfg0.win 7).blk t).view.read (Elt Ideal) (readout m c) := by
  rw [flushed7]
  funext j
  rw [View.read_apply]
  exact flushed_fun m c t ((flush0_7 t).mp hf) j

/-- An index of the array is in point `t`'s block iff each coordinate is in the block's range on its axis. -/
theorem mem_block (t : Fin cfg0.N) (i : S8192x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v0).slice (win0_7.rect t)).set ↔ _
  rw [View.set_slice_whole, Rect.mem_set_unit]
  exact Iff.rfl

/-- Row `r` is written back by the last contraction step of row block `r / 512`. -/
theorem covered (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hlt : 2 * ((i 0).val / 512) + 1 < cfg0.N := by rw [show cfg0.N = 32 from N_0]; omega
  refine ⟨⟨2 * ((i 0).val / 512) + 1, hlt⟩, (flush0_7 _).mpr (by show (2 * ((i 0).val / 512) + 1) % 2 = 1; omega), ?_⟩
  have g := grid_facts ⟨2 * ((i 0).val / 512) + 1, hlt⟩
  rw [mem_block]
  intro a
  match a with
  | ⟨0, _⟩ =>
    show win0_7.index ⟨2 * ((i 0).val / 512) + 1, hlt⟩ (0 : Fin 2) * 512 ≤ (i 0).val ∧ (i 0).val < win0_7.index ⟨2 * ((i 0).val / 512) + 1, hlt⟩ (0 : Fin 2) * 512 + 512
    rw [g.w7.1]
    show (2 * ((i 0).val / 512) + 1) / 2 * 512 ≤ (i 0).val ∧ (i 0).val < (2 * ((i 0).val / 512) + 1) / 2 * 512 + 512
    omega
  | ⟨1, _⟩ =>
    show win0_7.index ⟨2 * ((i 0).val / 512) + 1, hlt⟩ (1 : Fin 2) * 128 ≤ (i 1).val ∧ (i 1).val < win0_7.index ⟨2 * ((i 0).val / 512) + 1, hlt⟩ (1 : Fin 2) * 128 + 128
    rw [g.w7.2]
    omega

/-- After the run the result array holds the readout. -/
theorem final (c : Dev nD) : (dats m 0 c).arrAt 7 cfg0.N = readout m c :=
  (dats m 0 c).arrAt_eq_of_cover 7 (readout m c) (flushed_eq m c) covered

/-- The run, read: the result array at the readout of the arguments, the arguments unchanged. -/
theorem run : θ_run defs (onTc (τ := τ) (main (F := Ideal))) ⟨m, fun _ => 0, ρ⟩ fun r => ∀ c : Dev nD,
      r.2.mem ((c : Thread nD τ).loc main_v0) = readout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Result

end
-- ==== Proof.RefSide.lean ====
/-
  The reference computes the readout: its last value, read element by element, is `Cert.Readout.G` of the arguments.

  The reference concatenates `[X | A·X | rowsum(A ∘ Eᵀ)]` into an 8192 × 257 matrix and multiplies by `W`; the sum over
  the 257 columns splits into the three bands (`Cert.Readout.sum_concat`), each band's entry is read off the piece of the
  concatenation it lies in, and the host's row sum starts from the zero it is given (`0 + s = s`).
-/
import proofs.«157487_g52012053954614_cont_9to1_m_572_12_alg».proof.Proof.Gen.ReferenceIdeal.Read
import proofs.«157487_g52012053954614_cont_9to1_m_572_12_alg».proof.Proof.Readout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Readout

variable (x0 : (⟨S8192x128, .f32⟩ : BufTy).Contents (Elt Ideal)) (x1 x2 : (⟨S8192x8192, .f32⟩ : BufTy).Contents (Elt Ideal))
  (x3 : (⟨S257x128, .f32⟩ : BufTy).Contents (Elt Ideal)) (x4 : (⟨S128, .f32⟩ : BufTy).Contents (Elt Ideal))

/-! ## The concatenated matrix, band by band -/

/-- Columns 0 … 127 of the concatenation are the node features. -/
theorem support_features (r : Fin 8192) (k : Fin 128) :
    val_main_v5 (F := Ideal) x0 x1 x2 (ix2 r (⟨k.val, by have := k.isLt; omega⟩ : Fin 257)) = x0 (ix2 r k) := by
  unfold val_main_v5
  refine concatenate_apply_piece (1 : Fin S8192x257.rank) [⟨S8192x128, x0⟩, ⟨S8192x128, val_main_v0 (F := Ideal) x0 x2⟩, ⟨S8192x1, val_main_v4 (F := Ideal) x1 x2⟩] concatenates_S8192x128_S8192x128_S8192x1_S8192x257_d1 _ 0
    (by show 0 < 3; omega) S8192x128 x0 rfl rfl 0 rfl (ix2 r k) (fun b hb => ?_) ?_
  · match b with
    | ⟨0, _⟩ => rfl
    | ⟨1, _⟩ => exact absurd rfl hb
  · show 0 + k.val = k.val
    omega

/-- Columns 128 … 255 are the aggregated neighbour features `A · X`. -/
theorem support_aggregate (r : Fin 8192) (d : Fin 128) :
    val_main_v5 (F := Ideal) x0 x1 x2 (ix2 r (⟨128 + d.val, by have := d.isLt; omega⟩ : Fin 257))
      = val_main_v0 (F := Ideal) x0 x2 (ix2 r d) := by
  unfold val_main_v5
  refine concatenate_apply_piece (1 : Fin S8192x257.rank) [⟨S8192x128, x0⟩, ⟨S8192x128, val_main_v0 (F := Ideal) x0 x2⟩, ⟨S8192x1, val_main_v4 (F := Ideal) x1 x2⟩] concatenates_S8192x128_S8192x128_S8192x1_S8192x257_d1 _ 1
    (by show 1 < 3; omega) S8192x128 (val_main_v0 (F := Ideal) x0 x2) rfl rfl 128 rfl (ix2 r d) (fun b hb => ?_) ?_
  · match b with
    | ⟨0, _⟩ => rfl
    | ⟨1, _⟩ => exact absurd rfl hb
  · show 128 + d.val = 128 + d.val
    rfl

/-- Column 256 is the row sum of `A ∘ Eᵀ`. -/
theorem support_edge (r : Fin 8192) :
    val_main_v5 (F := Ideal) x0 x1 x2 (ix2 r (⟨256, by omega⟩ : Fin 257))
      = val_main_v4 (F := Ideal) x1 x2 (ix2 r (0 : Fin 1)) := by
  unfold val_main_v5
  refine concatenate_apply_piece (1 : Fin S8192x257.rank) [⟨S8192x128, x0⟩, ⟨S8192x128, val_main_v0 (F := Ideal) x0 x2⟩, ⟨S8192x1, val_main_v4 (F := Ideal) x1 x2⟩] concatenates_S8192x128_S8192x128_S8192x1_S8192x257_d1 _ 2
    (by show 2 < 3; omega) S8192x1 (val_main_v4 (F := Ideal) x1 x2) rfl rfl 256 rfl (ix2 r (0 : Fin 1)) (fun b hb => ?_) ?_
  · match b with
    | ⟨0, _⟩ => rfl
    | ⟨1, _⟩ => exact absurd rfl hb
  · show 256 + 0 = 256
    rfl

/-! ## The two inner sums -/

/-- The host's `A · X` at `(r, d)`. -/
theorem aggregate_eq (r : Fin 8192) (d : Fin 128) : val_main_v0 (F := Ideal) x0 x2 (ix2 r d) = agg x2 x0 r d := by
  rw [val_main_v0_apply]
  unfold agg
  refine Finset.sum_congr rfl fun j _ => ?_
  have e1 : lidx_main_v0 (ix2 r d) j = ix2 r j := funext fun a => by match a with | ⟨0, _⟩ => rfl | ⟨1, _⟩ => rfl
  have e2 : ridx_main_v0 (ix2 r d) j = ix2 j d := funext fun a => by match a with | ⟨0, _⟩ => rfl | ⟨1, _⟩ => rfl
  rw [e1, e2]

/-- The host's row sum of `A ∘ Eᵀ` at row `r`: the sum starts from zero. -/
theorem edge_eq (r : Fin 8192) : val_main_v4 (F := Ideal) x1 x2 (ix2 r (0 : Fin 1)) = edgeSum x2 x1 r := by
  rw [val_main_v4_apply, val_main_v3_apply, val_main_cst_apply]
  show Ideal.ofBits .f32 0x00000000#32 + _ = _
  rw [Ideal.ofBits_zero_f32, zero_add]
  unfold edgeSum
  refine Finset.sum_congr rfl fun j _ => ?_
  rw [val_main_v2_apply, val_main_v1_apply]
  have e1 : idx_main_v3 (idx_main_v4 (ix2 r (0 : Fin 1))) j = ix2 r j :=
    funext fun a => by match a with | ⟨0, _⟩ => rfl | ⟨1, _⟩ => rfl
  have e2 : idx_main_v1 (ix2 r j) = ix2 j r := funext fun a => by match a with | ⟨0, _⟩ => rfl | ⟨1, _⟩ => rfl
  rw [e1, e2]
  rfl

/-! ## The reference's result -/

theorem lhs_index (r : Fin 8192) (o : Fin 128) (k : Fin 257) : lidx_main_v6 (ix2 r o) k = ix2 r k :=
  funext fun a => by match a with | ⟨0, _⟩ => rfl | ⟨1, _⟩ => rfl

theorem rhs_index (r : Fin 8192) (o : Fin 128) (k : Fin 257) : ridx_main_v6 (ix2 r o) k = ix2 k o :=
  funext fun a => by match a with | ⟨0, _⟩ => rfl | ⟨1, _⟩ => rfl

/-- The reference's last value is the readout of its arguments. -/
theorem reference_eq : val_main_v9 (F := Ideal) x0 x1 x2 x3 x4 = G x0 x1 x2 x3 x4 := by
  funext i
  obtain ⟨r, o, rfl⟩ : ∃ (r : Fin 8192) (o : Fin 128), i = ix2 r o := ⟨i 0, i 1, eq_ix2 i⟩
  rw [G_apply, val_main_v9_apply]
  show val_main_v6 (F := Ideal) x0 x1 x2 x3 (ix2 r o) + val_main_v8 (F := Ideal) x4 (ix2 r o) = _
  rw [val_main_v6_apply, val_main_v8_apply, val_main_v7_apply, sum_concat]
  unfold rowOut
  have hb : idx_main_v7 (idx_main_v8 (ix2 r o)) = ix1 o := funext fun a => by match a with | ⟨0, _⟩ => rfl
  rw [hb]
  simp only [lhs_index, rhs_index]
  rw [support_edge, edge_eq]
  refine congrArg (· + x4 (ix1 o)) (congrArg (· + edgeSum x2 x1 r * x3 (ix2 (⟨256, by omega⟩ : Fin 257) o)) ?_)
  refine congrArg₂ (· + ·) (Finset.sum_congr rfl fun k _ => ?_) (Finset.sum_congr rfl fun d _ => ?_)
  · rw [support_features]
  · rw [support_aggregate, aggregate_eq]

end Cert.ReferenceIdeal.RefValue

end
-- ==== Proof.lean ====
/-
  A graph readout layer, fused into one tiled pass, against its plain reference, over the extended reals.

  For node features `X` (8192 × 128), edge features `E` and adjacency `A` (8192 × 8192), weights `W` (257 × 128) and
  bias `b` (128) both programs compute, at row `r` and output column `o`,

      ∑ₖ X[r,k]·W[k,o]  +  ∑_d (∑ⱼ A[r,j]·X[j,d])·W[128+d,o]  +  (∑ⱼ A[r,j]·E[j,r])·W[256,o]  +  b[o].

  The reference forms `[X | A·X | rowsum(A ∘ Eᵀ)]` and multiplies by `W`: its sum over the 257 columns splits into the
  three bands. The kernel walks a 16 × 2 grid of 512 × 4096 tiles of `A` (and the transposed tiles of `E`), accumulating
  `A·X` and the row sum over the two contraction steps from zero, and combines with the three blocks of `W` on the last
  step: its sums over 8192 neighbours are the sums of the two halves. Both differences are re-associations of finite
  sums, valid in any commutative additive monoid, so the finiteness of the inputs is not used. The kernel's change of
  float format on the edge tile is the identity on the extended reals.
-/
import proofs.«157487_g52012053954614_cont_9to1_m_572_12_alg».proof.Defs
import proofs.«157487_g52012053954614_cont_9to1_m_572_12_alg».proof.Proof.Gen.Kernel
import proofs.«157487_g52012053954614_cont_9to1_m_572_12_alg».proof.Proof.Gen.Kernel.Skeleton
import proofs.«157487_g52012053954614_cont_9to1_m_572_12_alg».proof.Proof.Gen.Kernel.Launch
import proofs.«157487_g52012053954614_cont_9to1_m_572_12_alg».proof.Proof.Gen.Kernel.Points
import proofs.«157487_g52012053954614_cont_9to1_m_572_12_alg».proof.Proof.Gen.Kernel.Frame
import proofs.«157487_g52012053954614_cont_9to1_m_572_12_alg».proof.Proof.Gen.KernelIdeal
import proofs.«157487_g52012053954614_cont_9to1_m_572_12_alg».proof.Proof.Gen.KernelIdeal.Skeleton
import proofs.«157487_g52012053954614_cont_9to1_m_572_12_alg».proof.Proof.Gen.KernelIdeal.Launch
import proofs.«157487_g52012053954614_cont_9to1_m_572_12_alg».proof.Proof.Gen.KernelIdeal.Points
import proofs.«157487_g52012053954614_cont_9to1_m_572_12_alg».proof.Proof.Gen.KernelIdeal.Frame
import proofs.«157487_g52012053954614_cont_9to1_m_572_12_alg».proof.Proof.Gen.ReferenceIdeal
import proofs.«157487_g52012053954614_cont_9to1_m_572_12_alg».proof.Proof.Gen.Pre_finite_inputs
import proofs.«157487_g52012053954614_cont_9to1_m_572_12_alg».proof.Proof.Gen.KernelIdeal.Value
import proofs.«157487_g52012053954614_cont_9to1_m_572_12_alg».proof.Proof.Gen.ReferenceIdeal.Run
import proofs.«157487_g52012053954614_cont_9to1_m_572_12_alg».proof.Proof.Gen.ReferenceIdeal.Read
import proofs.«157487_g52012053954614_cont_9to1_m_572_12_alg».proof.Proof.KernelValue
import proofs.«157487_g52012053954614_cont_9to1_m_572_12_alg».proof.Proof.RefSide
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- Both programs end with the readout of the arguments: the kernel's result array block by block
    (`Cert.KernelIdeal.Result.run`), the reference's last value band by band
    (`Cert.ReferenceIdeal.RefValue.reference_eq`). -/
theorem algebraic : Cert.algebraic_KernelIdeal_ReferenceIdeal := by
  intro m ρ m' ρ' _ hagree
  refine ⟨fun c => Cert.KernelIdeal.Result.readout m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
